-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x2048x2048 .f32) (main_arg1 : FVec F S2048x2048 .f32) (main_arg2 : FVec F S2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x2048x2048 : Shape := ⟨3, ![8, 2048, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S2048x2048, .f32⟩
  | .hbm, ⟨5, _⟩ => ⟨S1x2048, .f32⟩
  | .hbm, ⟨6, _⟩ => ⟨S16384x2048, .f32⟩
  | .hbm, ⟨7, _⟩ => ⟨S8x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x2048x2048_S16384x2048 : S8x2048x2048.ShapeCasts S16384x2048
  transposes_S2048x2048_S2048x2048_1_0 : S2048x2048.Transposes [1, 0] S2048x2048
  shapeCasts_S2048_S1x2048 : S2048.ShapeCasts S1x2048
  shapeCasts_S16384x2048_S8x2048x2048 : S16384x2048.ShapeCasts S8x2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x2048_S512 : S512x2048.Reduces [1] S512
  shapeCasts_S512_S512x1 : S512.ShapeCasts S512x1
  broadcasts_S512x1_S512x2048 : S512x1.Broadcasts S512x2048
  reduces_S2048x512_S512 : S2048x512.Reduces [0] S512
  shapeCasts_S512_S1x512 : S512.ShapeCasts S1x512
  broadcasts_S1x512_S2048x512 : S1x512.Broadcasts S2048x512
  bitsLt_bf16_f32 : FTy.bits .bf16 < FTy.bits .f32
  broadcasts_S1x512_S512x512 : S1x512.Broadcasts S512x512
  broadcasts_S512x1_S512x512 : S512x1.Broadcasts S512x512
  inb_S512x512_S512x512_0_0 : ∀ a, (![0, 0] : Fin 2 → Nat) a + S512x512.size a ≤ S512x512.size a
  h_S512x512 : 0 < S512x512.numel
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x2048.size a
  hwx0_3 : ∀ i : grid0.Coords, EltTy.bits .f32 = 32 ∨ (Rect.block (s := S16384x2048) S512x512.size (cc0_transform_3 i) (hinb0_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_call0_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S2048x1 : Shape := ⟨2, ![2048, 1]⟩
abbrev S1x1x2048 : Shape := ⟨3, ![1, 1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S2048, .f32⟩
  | .hbm, ⟨60, _⟩ => ⟨S1x1x2048, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S1x1x2048, .f32⟩
  | .hbm, ⟨66, _⟩ => ⟨S8x2048x2048, .f32⟩
  | .hbm, ⟨67, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_cst_11 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  reducesTo_S2048x2048_S2048_d1 : S2048x2048.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S_S8x2048x2048 : S_.BroadcastsInDim S8x2048x2048 (![] : Fin 0 → Fin S8x2048x2048.rank)
  shapeCasts_S2048x1_S2048 : S2048x1.ShapeCasts S2048
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S8x2048x2048_S2048x2048_S8x2048x2048_2_1_01_0_n_n_wf : DotDims.WF S8x2048x2048 S2048x2048 S8x2048x2048 [2] [1] [0, 1] [0] [] []

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.Spec.lean ====
/-
  The quantised linear layer, as one function of its three arrays over the extended reals.

  A token row `f` (2048 entries) is scaled by the root of its mean square plus a small constant; the scaled row's
  largest magnitude, divided by 127, is the row's step; each scaled entry divided by (step + the small constant) is
  rounded to the nearest integer, ties to even, and clipped to [-127, 127].  A weight row `g` has the mean of its
  magnitudes as its step; each entry divided by (step + the small constant) is rounded the same way and clipped to
  [-1, 1].  An output entry is the dot product of a quantised token row with a quantised weight row, times the
  weight row's step, times the token row's step, plus the bias entry.

  Everything is stated with the exact operations on the extended reals and with the float literals as the values
  their bit patterns denote; the same pattern stands on both sides of every equation below and is never evaluated.
-/
import Idealize.ShloMosaic.PureOps.Ideal
import Idealize.ShloMosaic.Lib.ValueIdx

noncomputable section

namespace Cert.BitLinear

open Idealize.ShloMosaic Idealize.ShloMosaic.ValueIdx
open scoped BigOperators

/-- The small constant added under the root and to both steps (the pattern of 1e-8 in single precision). -/
def eps : EReal := Ideal.ofBits .f32 0x322BCC77#32
/-- The row length 2048 as a float: the divisor of both means. -/
def len : EReal := Ideal.ofBits .f32 0x45000000#32
/-- 127 and -127: the token grid's ends. -/
def qhi : EReal := Ideal.ofBits .f32 0x42FE0000#32
def qlo : EReal := Ideal.ofBits .f32 0xC2FE0000#32
/-- 1 and -1: the weight grid's ends. -/
def thi : EReal := Ideal.ofBits .f32 0x3F800000#32
def tlo : EReal := Ideal.ofBits .f32 0xBF800000#32
/-- Minus infinity: where a running maximum starts. -/
def ninf : EReal := Ideal.ofBits .f32 0xFF800000#32

/-- Rounding to the nearest integer, ties to even (the infinities fixed). -/
def rnd (x : EReal) : EReal := Ideal.liftRound Ideal.roundHalfEven x

/-- The magnitude of an extended real. -/
def mag (x : EReal) : EReal := max x (-x)

/-- A token row divided by the root of (its mean square plus the small constant). -/
def scaled (f : Fin 2048 → EReal) (k : Fin 2048) : EReal :=
  Ideal.div (f k) (Ideal.sqrt (Ideal.div (∑ j : Fin 2048, f j * f j) len + eps))

/-- The largest magnitude of the scaled row, from minus infinity. -/
def peak (f : Fin 2048 → EReal) : EReal :=
  (Finset.univ : Finset (Fin 2048)).fold max ninf fun k => mag (scaled f k)

/-- The token row's step: its peak over 127. -/
def xstep (f : Fin 2048 → EReal) : EReal := Ideal.div (peak f) qhi

/-- The quantised token row: rounded multiples of the step, clipped to the grid. -/
def xq (f : Fin 2048 → EReal) (k : Fin 2048) : EReal :=
  min qhi (max qlo (rnd (Ideal.div (scaled f k) (xstep f + eps))))

/-- The weight row's step: the mean of its magnitudes. -/
def wstep (g : Fin 2048 → EReal) : EReal := Ideal.div (∑ j : Fin 2048, mag (g j)) len

/-- The ternary weight row. -/
def wq (g : Fin 2048 → EReal) (k : Fin 2048) : EReal :=
  min thi (max tlo (rnd (Ideal.div (g k) (wstep g + eps))))

/-- One output entry from a token row, a weight row and a bias entry. -/
def entry (f g : Fin 2048 → EReal) (b : EReal) : EReal :=
  (∑ k : Fin 2048, xq f k * wq g k) * wstep g * xstep f + b

/-- The layer on its arrays: tokens `[8, 2048, 2048]`, weights `[2048 (out), 2048 (in)]`, bias `[2048]`. -/
def layer (x : (⟨3, ![8, 2048, 2048]⟩ : Shape).Idx → EReal) (w : (⟨2, ![2048, 2048]⟩ : Shape).Idx → EReal)
    (b : (⟨1, ![2048]⟩ : Shape).Idx → EReal) : (⟨3, ![8, 2048, 2048]⟩ : Shape).Idx → EReal := fun i =>
  entry (fun k => x (ix3 (i 0) (i 1) k)) (fun k => w (ix2 (i 2) k)) (b (ix1 (i 2)))

/-- The same layer on the flattened token matrix `[16384, 2048]`, the transposed weights `[2048 (in), 2048 (out)]`
    and the bias as a `[1, 2048]` row: what the kernel's blocks tile. -/
def flat (x : (⟨2, ![16384, 2048]⟩ : Shape).Idx → EReal) (wT : (⟨2, ![2048, 2048]⟩ : Shape).Idx → EReal)
    (b : (⟨2, ![1, 2048]⟩ : Shape).Idx → EReal) : (⟨2, ![16384, 2048]⟩ : Shape).Idx → EReal := fun i =>
  entry (fun k => x (ix2 (i 0) k)) (fun k => wT (ix2 k (i 1))) (b (ix2 (0 : Fin 1) (i 1)))

end Cert.BitLinear

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.KernelBody.lean ====
/-
  The kernel body's stored value at one entry of its output block.

  A grid point reads a block of 512 token rows (all 2048 columns), a block of 512 weight columns of the transposed
  weight matrix (all 2048 rows) and the 512 matching bias entries, and stores a 512 x 512 block.  Entry (r, c) of what
  it stores depends on token row r of the block, weight column c of the block and bias entry c only: it is the
  layer's entry of that row, that column and that bias entry.  The row quantities (root mean square, peak, step,
  quantised row) are lane reductions kept as a column and spread back over the lanes; the column quantities (mean
  magnitude, ternary column) are sublane reductions kept as a row and spread back over the sublanes; the product is
  one contraction over all 2048 indices into a zero accumulator, whose half-precision operands are, on the extended
  reals, the quantised values themselves.
-/
import proofs.«131137_j51969104281929_1_alg».proof.Proof.Gen.KernelIdeal.Skeleton
import proofs.«131137_j51969104281929_1_alg».proof.Proof.Spec
import proofs.«131137_j51969104281929_1_alg».proof.Proof.LibColumn
import proofs.«131137_j51969104281929_1_alg».proof.Proof.LibDotFormats
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.BitLinear
open scoped BigOperators

/-! ## The three reductions at an index -/

/-- A sum over the lanes of a 512 x 2048 block, at row `r`: the sum of the row's 2048 entries. -/
theorem lanesum_at (v : FVec Ideal S512x2048 .f32) (hφ : FKind.Formats .f32)
    (hacc : (0x00000000#32 : BitVec 32) = FKind.add.neutral .f32 hφ) (r : Fin 512) :
    multiReduction .add [1] S512 v 0x00000000#32 reduces_S512x2048_S512 hφ hacc (ix1 r) = ∑ k : Fin 2048, v (ix2 r k) := by
  refine (Ideal.multiReduction_add_single v 0x00000000#32 reduces_S512x2048_S512 hφ hacc (ix1 r)).trans ?_
  refine Finset.sum_congr rfl fun k _ => congrArg v ?_
  funext a; apply Fin.ext
  match a with
  | ⟨0, _⟩ => rfl
  | ⟨1, _⟩ => rfl

/-- A maximum over the lanes of a 512 x 2048 block from minus infinity, at row `r`. -/
theorem lanemax_at (v : FVec Ideal S512x2048 .f32) (hφ : FKind.Formats .f32)
    (hacc : (0xFF800000#32 : BitVec 32) = FKind.maximumf.neutral .f32 hφ) (r : Fin 512) :
    multiReduction .maximumf [1] S512 v 0xFF800000#32 reduces_S512x2048_S512 hφ hacc (ix1 r)
      = (Finset.univ : Finset (Fin 2048)).fold max ninf fun k => v (ix2 r k) := by
  refine (Ideal.multiReduction_maximumf_single v 0xFF800000#32 reduces_S512x2048_S512 hφ hacc (ix1 r)).trans ?_
  have e : (v ∘ reduces_S512x2048_S512.lift (ix1 r)) = fun k : Fin 2048 => v (ix2 r k) :=
    funext fun k => congrArg v (funext fun a => Fin.ext (by
      match a with
      | ⟨0, _⟩ => rfl
      | ⟨1, _⟩ => rfl))
  rw [e]
  rfl

/-- A sum over the sublanes of a 2048 x 512 block, at column `c`: the sum of the column's 2048 entries. -/
theorem sublanesum_at (v : FVec Ideal S2048x512 .f32) (hφ : FKind.Formats .f32)
    (hacc : (0x00000000#32 : BitVec 32) = FKind.add.neutral .f32 hφ) (c : Fin 512) :
    multiReduction .add [0] S512 v 0x00000000#32 reduces_S2048x512_S512 hφ hacc (ix1 c) = ∑ k : Fin 2048, v (ix2 k c) := by
  refine (Ideal.multiReduction_add_single v 0x00000000#32 reduces_S2048x512_S512 hφ hacc (ix1 c)).trans ?_
  refine Finset.sum_congr rfl fun k _ => congrArg v ?_
  funext a; apply Fin.ext
  match a with
  | ⟨0, _⟩ => rfl
  | ⟨1, _⟩ => rfl

/-! ## The token row's quantities -/

/-- The scaled block: entry (r, k) is row r's entry k over the root of the row's mean square plus the small constant. -/
theorem scaled_at (x0 : Vec Ideal S512x2048 .f32) (r : Fin 512) (k : Fin 2048) :
    k0_pay4 (F := Ideal) x0 (ix2 r k) = scaled (fun j => x0 (ix2 r j)) k := by
  unfold k0_pay4
  try dsimp only
  rw [shapeCast_self]
  refine (divf_apply _ _ _).trans ?_
  unfold scaled
  refine congrArg (Ideal.div (x0 (ix2 r k))) ?_
  rw [LibColumn.broadcastTo_a1_ab_apply]
  show Ideal.sqrt (Ideal.div (shapeCast S512x1 _ _ (ix2 r (0 : Fin 1))) _ + _) = _
  rw [LibColumn.shapeCast_a_a1_apply]
  exact congrArg (fun t : EReal => Ideal.sqrt (Ideal.div t len + eps)) (lanesum_at (mulf x0 x0) _ _ r)

/-- The row's step, kept as a column: its peak over 127. -/
theorem xstep_at (x0 : Vec Ideal S512x2048 .f32) (r : Fin 512) (u : Fin 1) :
    k0_pay5 (F := Ideal) x0 (ix2 r u) = xstep (fun j => x0 (ix2 r j)) := by
  unfold k0_pay5
  try dsimp only
  refine (divf_apply _ _ _).trans ?_
  unfold xstep
  refine congrArg (fun t : EReal => Ideal.div t qhi) ?_
  rw [LibColumn.shapeCast_a_a1_apply]
  refine (lanemax_at (absf (k0_pay4 (F := Ideal) x0)) _ _ r).trans ?_
  unfold peak
  refine congrArg (Finset.univ.fold max ninf) (funext fun k => ?_)
  show FloatOps.absf (k0_pay4 (F := Ideal) x0 (ix2 r k)) = _
  rw [scaled_at]
  rfl

/-- The quantised block: entry (r, k) is row r's quantised entry k. -/
theorem xq_at (x0 : Vec Ideal S512x2048 .f32) (r : Fin 512) (k : Fin 2048) :
    k0_pay6 (F := Ideal) x0 (ix2 r k) = xq (fun j => x0 (ix2 r j)) k := by
  unfold k0_pay6
  try dsimp only
  unfold xq
  refine congrArg (fun t : EReal => min qhi (max qlo (rnd t))) ?_
  refine (divf_apply _ _ _).trans ?_
  rw [scaled_at, LibColumn.broadcastTo_a1_ab_apply]
  exact congrArg (fun t : EReal => Ideal.div (scaled (fun j => x0 (ix2 r j)) k) (t + eps)) (xstep_at x0 r 0)

/-! ## The weight column's quantities -/

/-- The column's step, kept as a row: the mean of the column's magnitudes. -/
theorem wstep_at (x1 : Vec Ideal S2048x512 .f32) (u : Fin 1) (c : Fin 512) :
    k0_pay7 (F := Ideal) x1 (ix2 u c) = wstep (fun j => x1 (ix2 j c)) := by
  unfold k0_pay7 k0_pay2
  try dsimp only
  rw [shapeCast_self]
  refine (divf_apply _ _ _).trans ?_
  unfold wstep
  refine congrArg (fun t : EReal => Ideal.div t len) ?_
  rw [shapeCast_a_1a_apply]
  refine (sublanesum_at _ _ _ c).trans ?_
  rfl

/-- The rounded column before clipping: entry (k, c) is column c's entry k over (the column's step plus the small
    constant), rounded. -/
theorem wround_at (x1 : Vec Ideal S2048x512 .f32) (k : Fin 2048) (c : Fin 512) :
    k0_pay8 (F := Ideal) x1 (ix2 k c) = rnd (Ideal.div (x1 (ix2 k c)) (wstep (fun j => x1 (ix2 j c)) + eps)) := by
  unfold k0_pay8 k0_pay2
  try dsimp only
  rw [shapeCast_self]
  refine congrArg rnd ?_
  refine (divf_apply _ _ _).trans ?_
  rw [broadcastTo_1b_ab_apply]
  exact congrArg (fun t : EReal => Ideal.div (x1 (ix2 k c)) (t + eps)) (wstep_at x1 0 c)

/-! ## The stored entry -/

/-- Entry (r, c) of the block a grid point stores: the layer's entry of token row r, weight column c and bias entry c
    of the point's three input blocks. -/
theorem store_at (x0 : Vec Ideal S512x2048 .f32) (x1 : Vec Ideal S2048x512 .f32) (x2 : Vec Ideal S1x512 .f32) (r c : Fin 512) :
    k0_pay1 (F := Ideal) (k0_pay3 x2) (k0_pay5 x0) (k0_pay6 x0) (k0_pay7 x1) (k0_pay8 x1) (Scalar.ofBits .f32 0xBF800000#32) (ix2 r c)
      = entry (fun k => x0 (ix2 r k)) (fun k => x1 (ix2 k c)) (x2 (ix2 (0 : Fin 1) c)) := by
  unfold k0_pay1 k0_pay3
  try dsimp only
  rw [shapeCast_self]
  refine (addf_apply _ _ _).trans ?_
  rw [broadcastTo_1b_ab_apply]
  unfold entry
  refine congrArg (fun t : EReal => t + x2 (ix2 (0 : Fin 1) c)) ?_
  refine (mulf_apply _ _ _).trans ?_
  rw [LibColumn.broadcastTo_a1_ab_apply, xstep_at]
  refine congrArg (fun t : EReal => t * xstep (fun k => x0 (ix2 r k))) ?_
  refine (mulf_apply _ _ _).trans ?_
  rw [broadcastTo_1b_ab_apply, wstep_at]
  refine congrArg (fun t : EReal => t * wstep (fun k => x1 (ix2 k c))) ?_
  refine (LibDotFormats.matmul_cols_zero_apply dot_S512x2048_S2048x512_S512x512_1_0_0_1_n_n rfl rfl rfl rfl rfl rfl none _ _ r c).trans ?_
  refine Finset.sum_congr rfl fun k _ => ?_
  show k0_pay6 (F := Ideal) x0 (ix2 r k) * min thi (max tlo (k0_pay8 (F := Ideal) x1 (ix2 k c))) = _
  rw [xq_at, wround_at]
  rfl

end Cert.KernelIdeal.Body

end
-- ==== Proof.KernelArray.lean ====
/-
  From the blocks a grid point stores to the whole output matrix.

  The grid is 32 x 4: point (i, j) reads token rows 512 i .. 512 i + 511 (every column), weight columns
  512 j .. 512 j + 511 of the transposed weights (every row) and the same 512 bias entries, and writes back the
  512 x 512 block at block position (i, j) of the 16384 x 2048 output.  Entry (r, c) of that block is the layer's
  entry of token row 512 i + r and weight column 512 j + c, which is the flat layer at index (512 i + r, 512 j + c):
  every point's block is a block of ONE function of the three arrays.  The 128 blocks tile the output, so after the
  run the output matrix is that function.
-/
import proofs.«131137_j51969104281929_1_alg».proof.Proof.Gen.KernelIdeal.Frame
import proofs.«131137_j51969104281929_1_alg».proof.Proof.KernelBody

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem Cert.BitLinear

variable (m : (ℓ : Loc nD τ sig) → Buf (Elt Ideal) ℓ)

theorem offs_zero : (![0, 0] : Fin 2 → Nat) = fun _ => 0 := funext fun a => by fin_cases a <;> rfl

/-- The block positions, decided over the grid: the token block moves with the output's row position and stays at
    column position 0; the weight block and the bias block stay at row position 0 and move with the output's column
    position; the output's positions range over 32 x 4. -/
theorem positions : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 31 ∧ win0_3.index t (1 : Fin 2) ≤ 3 :=
  (by decide +kernel : ∀ t : Fin grid0.N, _)

/-- Every block position of the output is some point's. -/
theorem positions_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- The stored entry over blocks that are rows, columns and bias entries of three arrays: the flat layer at the
    array index whose row and column those are. -/
theorem block_entry (X : S16384x2048.Idx → EReal) (W : S2048x2048.Idx → EReal) (B : S1x2048.Idx → EReal)
    (x0 : Vec Ideal S512x2048 .f32) (x1 : Vec Ideal S2048x512 .f32) (x2 : Vec Ideal S1x512 .f32)
    (y : S512x512.Idx) (i : S16384x2048.Idx)
    (h0 : ∀ k : Fin 2048, x0 (ix2 (y 0) k) = X (ix2 (i 0) k))
    (h1 : ∀ k : Fin 2048, x1 (ix2 k (y 1)) = W (ix2 k (i 1)))
    (h2 : x2 (ix2 (0 : Fin 1) (y 1)) = B (ix2 (0 : Fin 1) (i 1))) :
    k0_pay1 (F := Ideal) (k0_pay3 x2) (k0_pay5 x0) (k0_pay6 x0) (k0_pay7 x1) (k0_pay8 x1) (Scalar.ofBits .f32 0xBF800000#32) y
      = flat X W B i := by
  have e := Body.store_at x0 x1 x2 (y 0) (y 1)
  have hy : y = ix2 (y 0) (y 1) := eq_ix2 y
  rw [hy]
  refine e.trans ?_
  unfold flat
  simp only [h0, h1, h2]

/-- WHAT POINT `t` WRITES BACK is block `t` of the flat layer of the arrays as the region finds them. -/
theorem flushed_eq (c : Dev nD) (t : Fin cfg0.N) :
    (dats m 0 c).flushed 3 t = ((cfg0.win 3).blk t).view.read (Elt Ideal)
      (flat (V m c main_call0_v0) (V m c main_call0_v1) (V m c main_call0_v2)) := by
  show (cfg0.win 3).cut (grid0.coords t) ((dats m 0 c).after 3 t) = _
  rw [after0_3]
  unfold out0_3
  rw [View.canon_unit_zero offs_zero]
  simp only [View.ld_unit_zero (S := S512x2048) offs_zero, View.ld_unit_zero (S := S2048x512) offs_zero,
    View.ld_unit_zero (S := S1x512) offs_zero]
  obtain ⟨e0, e1, e2, e3, e4, e5, e6, e7⟩ := positions t
  funext j
  refine block_entry (V m c main_call0_v0) (V m c main_call0_v1) (V m c main_call0_v2)
    (iblk m c 0 t) (iblk m c 1 t) (iblk m c 2 t) j (((cfg0.win 3).blk t).view.emb j) ?_ ?_ ?_
  · intro k
    show V m c main_call0_v0 (((cfg0.win 0).blk t).view.emb (ix2 (j 0) k)) = V m c main_call0_v0 (ix2 ((((cfg0.win 3).blk t).view.emb j) 0) k)
    refine congrArg (V m c main_call0_v0) ?_
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 2048 + 1 * k.val = k.val; omega
  · intro k
    show V m c main_call0_v1 (((cfg0.win 1).blk t).view.emb (ix2 k (j 1))) = V m c main_call0_v1 (ix2 k ((((cfg0.win 3).blk t).view.emb j) 1))
    refine congrArg (V m c main_call0_v1) ?_
    funext a; apply Fin.ext
    match a with
    | ⟨0, _⟩ => show win0_1.index t (0 : Fin 2) * 2048 + 1 * k.val = k.val; omega
    | ⟨1, _⟩ => show win0_1.index t (1 : Fin 2) * 512 + 1 * (j 1).val = win0_3.index t (1 : Fin 2) * 512 + 1 * (j 1).val; omega
  · show V m c main_call0_v2 (((cfg0.win 2).blk t).view.emb (ix2 (0 : Fin 1) (j 1))) = V m c main_call0_v2 (ix2 (0 : Fin 1) ((((cfg0.win 3).blk t).view.emb j) 1))
    refine congrArg (V m c main_call0_v2) ?_
    funext a; apply Fin.ext
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega

/-- An index of the output is in point `t`'s block iff each coordinate is in the block's range on its axis. -/
theorem mem_blk (t : Fin cfg0.N) (i : S16384x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_call0_v3).slice (win0_3.rect t)).set ↔ _
  rw [View.set_slice_whole, Rect.mem_set_unit]
  exact Iff.rfl

/-- The blocks tile the output: index (R, n) is in the block at position (R / 512, n / 512). -/
theorem cover (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := positions_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE OUTPUT MATRIX after the run: the flat layer of the arrays as the region finds them. -/
theorem final (c : Dev nD) :
    (dats m 0 c).arrAt 3 cfg0.N = flat (V m c main_call0_v0) (V m c main_call0_v1) (V m c main_call0_v2) :=
  (dats m 0 c).arrAt_eq_of_cover 3 _ (fun t _ => flushed_eq m c t) cover

end Cert.KernelIdeal.Blocks

end
-- ==== Proof.KernelHost.lean ====
import proofs.«131137_j51969104281929_1_alg».proof.Proof.Gen.KernelIdeal.Frame
import Idealize.ShloMosaic.Lib.ValueLayout
import Idealize.ShloMosaic.Lib.Pipeline.Value
import Idealize.ShloMosaic.Lib.StableHlo.Run

noncomputable section

namespace Cert.KernelIdeal.HostValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! The arrays around the kernel region, entry by entry.

Before the region the program flattens the tokens `[8, 2048, 2048]` to `[16384, 2048]`, transposes the weight matrix,
and gives the bias a leading unit axis; after it, the region's `[16384, 2048]` output is cut back into `[8, 2048, 2048]`.
A reshape keeps row-major positions, so row `b * 2048 + s` of the flat array is row `s` of batch `b`; the transpose
swaps the two coordinates; the unit axis adds nothing. -/

/-- The flattened tokens at row `b * 2048 + s`, column `k`, are the tokens at `(b, s, k)`: both entries sit at row-major
    position `(b * 2048 + s) * 2048 + k`. -/
theorem tokens_at (c : Dev nD) (b : Fin 8) (s : Fin 2048) (k : Fin 2048) :
    (V m c main_call0_v0 : S16384x2048.Idx → EReal) (ix2 (⟨b.val * 2048 + s.val, by omega⟩ : Fin 16384) k)
      = (m ((c : Thread nD τ).loc main_arg0) : S8x2048x2048.Idx → EReal) (ix3 b s k) := by
  have e : (V m c main_call0_v0 : S16384x2048.Idx → EReal)
      = shapeCast S16384x2048 (m ((c : Thread nD τ).loc main_arg0) : S8x2048x2048.Idx → EReal)
          shapeCasts_S8x2048x2048_S16384x2048 := by
    show StableHlo.after hostOps0 (fun b => m (c, b)) (Proc.devRef .tc main_call0_v0) = _
    after_results
    rfl
  refine (congrFun e _).trans ?_
  refine shapeCast_apply _ _ _ (ix3 b s k) ?_
  rw [Shape.rowMajor_val_three, Shape.rowMajor_val_two]
  show (b.val * 2048 + s.val) * 2048 + k.val = (b.val * 2048 + s.val) * 2048 + k.val
  rfl

/-- The transposed weights at `(k, n)` are the weights at `(n, k)`. -/
theorem weights_at (c : Dev nD) (k n : Fin 2048) :
    (V m c main_call0_v1 : S2048x2048.Idx → EReal) (ix2 k n)
      = (m ((c : Thread nD τ).loc main_arg1) : S2048x2048.Idx → EReal) (ix2 n k) := by
  have e : (V m c main_call0_v1 : S2048x2048.Idx → EReal)
      = transpose S2048x2048 [1, 0] (m ((c : Thread nD τ).loc main_arg1) : S2048x2048.Idx → EReal)
          transposes_S2048x2048_S2048x2048_1_0 := by
    show StableHlo.after hostOps0 (fun b => m (c, b)) (Proc.devRef .tc main_call0_v1) = _
    after_results
    rfl
  refine (congrFun e _).trans ?_
  exact transpose_ix2_apply _ _ k n

/-- The bias as a `[1, 2048]` row, at `(0, n)`, is the bias at `n`. -/
theorem bias_at (c : Dev nD) (n : Fin 2048) :
    (V m c main_call0_v2 : S1x2048.Idx → EReal) (ix2 (0 : Fin 1) n)
      = (m ((c : Thread nD τ).loc main_arg2) : S2048.Idx → EReal) (ix1 n) := by
  have e : (V m c main_call0_v2 : S1x2048.Idx → EReal)
      = shapeCast S1x2048 (m ((c : Thread nD τ).loc main_arg2) : S2048.Idx → EReal)
          shapeCasts_S2048_S1x2048 := by
    show StableHlo.after hostOps0 (fun b => m (c, b)) (Proc.devRef .tc main_call0_v2) = _
    after_results
    rfl
  refine (congrFun e _).trans ?_
  exact shapeCast_a_1a_apply _ _ 0 n

/-- The program's result at `(b, s, n)` is the region's output array at row `b * 2048 + s`, column `n`: the one operation
    after the region is the inverse reshape, read on the array the pipeline leaves in its fourth window. -/
theorem tail_at (c : Dev nD) (b : Fin 8) (s : Fin 2048) (n : Fin 2048) :
    (Pipeline.afterTail₀ cfgs (dats m) 0 (V0 m) [hostOps1] c main_v0 : S8x2048x2048.Idx → EReal) (ix3 b s n)
      = ((dats m 0 c).arrAt 3 cfg0.N : S16384x2048.Idx → EReal) (ix2 (⟨b.val * 2048 + s.val, by omega⟩ : Fin 16384) n) := by
  have e : (Pipeline.afterTail₀ cfgs (dats m) 0 (V0 m) [hostOps1] c main_v0 : S8x2048x2048.Idx → EReal)
      = shapeCast S8x2048x2048 ((dats m 0 c).arrAt 3 cfg0.N : S16384x2048.Idx → EReal)
          shapeCasts_S16384x2048_S8x2048x2048 := by
    unfold Pipeline.afterTail₀
    show StableHlo.after hostOps1 _ (Proc.devRef .tc main_v0) = _
    after_results
    have w3 : Pipeline.withArrays (cfgs 0).spec c (V0 m c) (fun w => (dats m 0 c).arrAt w (cfgs 0).N)
          (Proc.devRef .tc main_call0_v3) = (dats m 0 c).arrAt 3 cfg0.N :=
      Pipeline.withArrays_arr spec0 launch0.win.arr_inj c _ _ 3
    rw [w3]
    rfl
  refine (congrFun e _).trans ?_
  refine shapeCast_apply _ _ _ (ix2 (⟨b.val * 2048 + s.val, by omega⟩ : Fin 16384) n) ?_
  rw [Shape.rowMajor_val_three, Shape.rowMajor_val_two]
  show (b.val * 2048 + s.val) * 2048 + n.val = (b.val * 2048 + s.val) * 2048 + n.val
  rfl

end Cert.KernelIdeal.HostValue

end
-- ==== Proof.KernelRun.lean ====
/-
  The kernel program's run with its result named.

  The program flattens the tokens, transposes the weights, gives the bias a unit axis, runs the kernel region and
  cuts the region's output matrix back into batches.  The region leaves the flat layer of the three prepared arrays
  in its output matrix; read through the two reshapes, the transpose and the unit axis, entry (b, s, n) of the result
  is the layer's entry of token row (b, s), weight row n and bias entry n.
-/
import proofs.«131137_j51969104281929_1_alg».proof.Proof.KernelArray
import proofs.«131137_j51969104281929_1_alg».proof.Proof.KernelHost

noncomputable section

namespace Cert.KernelIdeal.RunValue

open Cert.KernelIdeal Cert.KernelIdeal.Gen Idealize.ShloMosaic Idealize.ShloMosaic.TcCoe Idealize.ShloMosaic.ValueIdx Idealize.SL.Sem Cert.BitLinear

variable (m : (ℓ : Loc nD τ sig) → Buf (Elt Ideal) ℓ) (ρ : Dev nD → PrngReg)

/-- What the operation after the region leaves in the result buffer: the layer of the argument arrays. -/
theorem result_eq (c : Dev nD) :
    (Pipeline.afterTail₀ cfgs (dats m) 0 (V0 m) [hostOps1] c main_v0 : S8x2048x2048.Idx → EReal)
      = layer (m ((c.tc : Thread nD τ).loc main_arg0)) (m ((c.tc : Thread nD τ).loc main_arg1)) (m ((c.tc : Thread nD τ).loc main_arg2)) := by
  funext i
  obtain ⟨b, s, n, rfl⟩ : ∃ (b : Fin 8) (s : Fin 2048) (n : Fin 2048), i = ix3 b s n := ⟨i 0, i 1, i 2, eq_ix3 i⟩
  refine (HostValue.tail_at m c b s n).trans ?_
  refine (congrFun (Blocks.final m c) _).trans ?_
  exact congr (congr (congrArg entry (funext fun k => HostValue.tokens_at m c b s k))
    (funext fun k => HostValue.weights_at m c k n)) (HostValue.bias_at m c n)

/-- Every weakly fair execution of the kernel program terminates with the layer of the arguments in its result and the
    arguments unchanged. -/
theorem run : θ_run defs (onTc (τ := τ) (main (F := Ideal))) ⟨m, fun _ => 0, ρ⟩ fun r => ∀ c : Dev nD,
      r.2.mem ((c.tc : Thread nD τ).loc main_v0) = layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.RefSide.lean ====
/-
  The reference program's result is the layer.

  The reference works on whole arrays, one operation at a time: the squares summed along the last axis, the mean, the
  root, the scaled tokens; the magnitudes' maximum along the last axis, the step, the rounded and clipped quotient; for
  the weights the mean magnitude per row, the rounded and clipped quotient; one contraction of the quantised tokens'
  last axis with the ternary weights' last axis; the two rescalings and the bias.  Read at an index (b, s, n), every
  stage depends on token row (b, s), weight row n and bias entry n only, and is the quantity of the same name in the
  layer's definition.  The two sums start from a zero initial value, which adds nothing; the maximum starts from minus
  infinity, as the layer's peak does.
-/
import proofs.«131137_j51969104281929_1_alg».proof.Proof.Gen.ReferenceIdeal.Read
import proofs.«131137_j51969104281929_1_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Cert.BitLinear
open scoped BigOperators

/-- A scaled token entry: the reference's sum of squares starts from the zero pattern, which adds nothing. -/
theorem v9_at (x0 : (⟨S8x2048x2048, .f32⟩ : BufTy).Contents (Elt Ideal)) (b : Fin 8) (s k : Fin 2048) :
    val_main_v9 (F := Ideal) x0 (ix3 b s k) = scaled (fun k => x0 (ix3 b s k)) k := by
  rw [val_main_v9_apply, val_main_v8_apply, val_main_v7_apply, val_main_v6_apply, val_main_v4_apply, val_main_v2_apply,
    val_main_v1_apply, val_main_v3_apply, val_main_cst_0_apply, val_main_v5_apply, val_main_cst_1_apply, val_main_cst_apply]
  simp only [val_main_v0_apply]
  have e : ∀ k' : Fin 2048, idx_main_v1 (idx_main_v2 (idx_main_v8 (ix3 b s k))) k' = ix3 b s k' := fun k' =>
    funext fun a => Fin.ext (by match a with | ⟨0, _⟩ => rfl | ⟨1, _⟩ => rfl | ⟨2, _⟩ => rfl)
  simp only [e, Ideal.hostDivf_def, Ideal.hostUnary_sqrt_def, Ideal.addf_def, Ideal.mulf_def, Ideal.ofBits_def,
    Ideal.ofBits_zero_f32, zero_add]
  rfl

/-- The reference's running maximum over a token row, from minus infinity, is the row's peak. -/
theorem v22_at (x0 : (⟨S8x2048x2048, .f32⟩ : BufTy).Contents (Elt Ideal)) (b : Fin 8) (s : Fin 2048) :
    val_main_v22 (F := Ideal) x0 (ix2 b s) = peak (fun k => x0 (ix3 b s k)) := by
  unfold val_main_v22
  rw [Host.reduce_eq_fold_single FloatOps.maximumf _ _ reducesTo_S8x2048x2048_S8x2048_d2 (by decide) h_S_]
  unfold peak
  refine Finset.fold_congr (fun (k : Fin 2048) _ => ?_)
  have e : Shape.Reduces.lift (s := S8x2048x2048) (a := 2) (t := S8x2048) (by decide) (ix2 b s) k = ix3 b s k :=
    funext fun a => Fin.ext (by match a with | ⟨0, _⟩ => rfl | ⟨1, _⟩ => rfl | ⟨2, _⟩ => rfl)
  show val_main_v21 (F := Ideal) x0 (Shape.Reduces.lift (s := S8x2048x2048) (a := 2) (t := S8x2048) _ (ix2 b s) k) = _
  rw [e, val_main_v21_apply, v9_at]
  rfl

/-- The token row's step: the peak over 127. -/
theorem v25_at (x0 : (⟨S8x2048x2048, .f32⟩ : BufTy).Contents (Elt Ideal)) (b : Fin 8) (s : Fin 2048) (z : Fin 1) :
    val_main_v25 (F := Ideal) x0 (ix3 b s z) = xstep (fun k => x0 (ix3 b s k)) := by
  rw [val_main_v25_apply, val_main_v23_apply, val_main_v24_apply, val_main_cst_8_apply]
  have e : idx_main_v23 (ix3 b s z) = ix2 b s :=
    funext fun a => Fin.ext (by match a with | ⟨0, _⟩ => rfl | ⟨1, _⟩ => rfl)
  rw [e, v22_at]
  rfl

/-- The quantised token entry: the scaled entry over (step + the small constant), rounded, clipped to the grid. -/
theorem v31_at (x0 : (⟨S8x2048x2048, .f32⟩ : BufTy).Contents (Elt Ideal)) (b : Fin 8) (s k : Fin 2048) :
    val_main_v31 (F := Ideal) x0 (ix3 b s k) = xq (fun k => x0 (ix3 b s k)) k := by
  rw [val_main_v31_apply, val_main_call3_v4_apply, val_main_call3_v3_apply, val_main_cst_11_apply,
    val_main_call3_v2_apply, val_main_call3_v1_apply, val_main_call3_v0_apply, val_main_cst_10_apply,
    val_main_v30_apply, val_main_v29_apply, val_main_v28_apply, val_main_v27_apply, val_main_v26_apply,
    val_main_cst_9_apply]
  have e : idx_main_v28 (ix3 b s k) = ix3 b s (0 : Fin 1) :=
    funext fun a => Fin.ext (by match a with | ⟨0, _⟩ => rfl | ⟨1, _⟩ => rfl | ⟨2, _⟩ => rfl)
  rw [e, v25_at, v9_at]
  rfl

/-- The weight row's step: the mean of its magnitudes (the sum again starts from the zero pattern). -/
theorem v14_at (x1 : (⟨S2048x2048, .f32⟩ : BufTy).Contents (Elt Ideal)) (n : Fin 2048) (z : Fin 1) :
    val_main_v14 (F := Ideal) x1 (ix2 n z) = wstep (fun k => x1 (ix2 n k)) := by
  rw [val_main_v14_apply, val_main_v12_apply, val_main_v11_apply, val_main_v13_apply, val_main_cst_3_apply,
    val_main_cst_2_apply]
  simp only [val_main_v10_apply]
  have e : ∀ k' : Fin 2048, idx_main_v11 (idx_main_v12 (ix2 n z)) k' = ix2 n k' := fun k' =>
    funext fun a => Fin.ext (by match a with | ⟨0, _⟩ => rfl | ⟨1, _⟩ => rfl)
  simp only [e, Ideal.hostDivf_def, Ideal.hostAbsf_def, Ideal.absf_def, Ideal.ofBits_def, Ideal.ofBits_zero_f32, zero_add]
  rfl

/-- The ternary weight entry: the entry over (step + the small constant), rounded, clipped to [-1, 1]. -/
theorem v20_at (x1 : (⟨S2048x2048, .f32⟩ : BufTy).Contents (Elt Ideal)) (n k : Fin 2048) :
    val_main_v20 (F := Ideal) x1 (ix2 n k) = wq (fun k => x1 (ix2 n k)) k := by
  rw [val_main_v20_apply, val_main_call1_v4_apply, val_main_call1_v3_apply, val_main_cst_6_apply,
    val_main_call1_v2_apply, val_main_call1_v1_apply, val_main_call1_v0_apply, val_main_cst_5_apply,
    val_main_v19_apply, val_main_v18_apply, val_main_v17_apply, val_main_v16_apply, val_main_v15_apply,
    val_main_cst_4_apply]
  have e : idx_main_v17 (ix2 n k) = ix2 n (0 : Fin 1) :=
    funext fun a => Fin.ext (by match a with | ⟨0, _⟩ => rfl | ⟨1, _⟩ => rfl)
  rw [e, v14_at]
  rfl

theorem ref_eq_layer (x0 : (⟨S8x2048x2048, .f32⟩ : BufTy).Contents (Elt Ideal)) (x1 : (⟨S2048x2048, .f32⟩ : BufTy).Contents (Elt Ideal))
    (x2 : (⟨S2048, .f32⟩ : BufTy).Contents (Elt Ideal)) :
    val_main_v41 (F := Ideal) x0 x1 x2 = layer x0 x1 x2 := by
  funext i
  obtain ⟨b, s, n, rfl⟩ : ∃ (b : Fin 8) (s n : Fin 2048), i = ix3 b s n := ⟨i 0, i 1, i 2, eq_ix3 i⟩
  rw [val_main_v41_apply, val_main_v38_apply, val_main_v36_apply, val_main_v32_apply, val_main_v35_apply,
    val_main_v34_apply, val_main_v33_apply, val_main_v37_apply, val_main_v40_apply, val_main_v39_apply]
  have el : ∀ k : Fin 2048, lidx_main_v32 (ix3 b s n) k = ix3 b s k := fun k =>
    funext fun a => Fin.ext (by match a with | ⟨0, _⟩ => rfl | ⟨1, _⟩ => rfl | ⟨2, _⟩ => rfl)
  have er : ∀ k : Fin 2048, ridx_main_v32 (ix3 b s n) k = ix2 n k := fun k =>
    funext fun a => Fin.ext (by match a with | ⟨0, _⟩ => rfl | ⟨1, _⟩ => rfl)
  have e33 : idx_main_v33 (idx_main_v34 (idx_main_v35 (ix3 b s n))) = ix2 n (0 : Fin 1) :=
    funext fun a => Fin.ext (by match a with | ⟨0, _⟩ => exact Nat.div_one _ | ⟨1, _⟩ => rfl)
  have e37 : idx_main_v37 (ix3 b s n) = ix3 b s (0 : Fin 1) :=
    funext fun a => Fin.ext (by match a with | ⟨0, _⟩ => rfl | ⟨1, _⟩ => rfl | ⟨2, _⟩ => rfl)
  have e39 : idx_main_v39 (idx_main_v40 (ix3 b s n)) = ix1 n :=
    funext fun a => Fin.ext (by match a with | ⟨0, _⟩ => rfl)
  simp only [el, er, v31_at, v20_at]
  rw [e33, e37, e39, v14_at, v25_at]
  rfl

end Cert.ReferenceIdeal.RefValue

end
-- ==== Proof.lean ====
/-
  A quantised linear layer computed by a tiled kernel equals its plain reference over the extended reals.

  Both programs scale each token row by the root of its mean square, quantise it to 255 levels by its peak, quantise
  each weight row to three levels by its mean magnitude, multiply the quantised operands, and rescale by the two steps
  before adding the bias.  The kernel does this on 512 x 512 output blocks of the flattened token matrix against the
  transposed weights, recomputing each row's and column's quantities inside every block that needs them; the
  reference does it on the whole arrays.  Entry by entry both are the same composition of the same exact operations
  with the same literals, in the same order; the two sides differ only in layout (a flattening, a transpose, unit
  axes) and in which finite index set a sum or a maximum ranges over, so no law that needs finite inputs is used.

  The kernel's frames are the generated ones; the reference's frame is its generated run.  The kernel's result is read
  off the frame run block by block and through the host operations around the region; the reference's result is read
  one operation at a time; both are the function `Cert.BitLinear.layer` of the arguments.
-/
import proofs.«131137_j51969104281929_1_alg».proof.Defs
import proofs.«131137_j51969104281929_1_alg».proof.Proof.Gen.Kernel.Frame
import proofs.«131137_j51969104281929_1_alg».proof.Proof.Gen.KernelIdeal.Frame
import proofs.«131137_j51969104281929_1_alg».proof.Proof.Gen.ReferenceIdeal.Run
import proofs.«131137_j51969104281929_1_alg».proof.Proof.Gen.ReferenceIdeal.Read
import proofs.«131137_j51969104281929_1_alg».proof.Proof.Gen.Pre_finite_inputs
import proofs.«131137_j51969104281929_1_alg».proof.Proof.KernelRun
import proofs.«131137_j51969104281929_1_alg».proof.Proof.RefSide

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the three arguments, both programs end with the layer of those arguments. -/
theorem algebraic : Cert.algebraic_KernelIdeal_ReferenceIdeal := by
  intro m ρ m' ρ' _ hagree
  refine ⟨fun c => Cert.BitLinear.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.ref_eq_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
